-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1048576 : Shape := ⟨1, ![1048576]⟩
abbrev S_ : Shape := ⟨0, ![]⟩

class Facts : Prop where

variable [Facts]

def fn {F : FTy → Type} [FloatOps F] (main_arg0 : IVec S1048576 32) : IVec S_ 1 :=
  let main_c : IVec S_ 1 := constantI S_ 1 1#1
  main_c
-- ==== Kernel.lean ====
abbrev S1048576 : Shape := ⟨1, ![1048576]⟩
abbrev S1048576x1 : Shape := ⟨2, ![1048576, 1]⟩
abbrev S1048576x64 : Shape := ⟨2, ![1048576, 64]⟩
abbrev S8192x1 : Shape := ⟨2, ![8192, 1]⟩
abbrev S8192x64 : Shape := ⟨2, ![8192, 64]⟩

abbrev nBuf : Space → Nat
  | .hbm => 3
  | .vmem => 4
  | .smem => 0
  | _ => 0

abbrev bufTy : (tb : Table) → Fin (tcTables nBuf tb) → BufTy
  | .hbm, ⟨0, _⟩ => ⟨S1048576, .i32⟩
  | .hbm, ⟨1, _⟩ => ⟨S1048576x1, .i32⟩
  | .hbm, ⟨2, _⟩ => ⟨S1048576x64, .f32⟩
  | .local _ .vmem, ⟨0, _⟩ => ⟨S8192x1, .i32⟩
  | .local _ .vmem, ⟨1, _⟩ => ⟨S8192x1, .i32⟩
  | .local _ .vmem, ⟨2, _⟩ => ⟨S8192x64, .f32⟩
  | .local _ .vmem, ⟨3, _⟩ => ⟨S8192x64, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1048576_S1048576x1 : S1048576.ShapeCasts S1048576x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x64_d1_w32 : S8192x64.Iotas .tc 32 [1]
  broadcasts_S8192x1_S8192x64 : S8192x1.Broadcasts S8192x64
  natLt_1_32 : 1 < 32
  inb_S8192x64_S8192x64_0_0 : ∀ a, (![0, 0] : Fin 2 → Nat) a + S8192x64.size a ≤ S8192x64.size a
  h_S8192x64 : 0 < S8192x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1048576x1.size a
  hwx0_0 : ∀ i : grid0.Coords, EltTy.bits .i32 = 32 ∨ (Rect.block (s := S1048576x1) S8192x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .f32 = 32 ∨ (Rect.block (s := S1048576x64) S8192x64.size (cc0_transform_1 i) (hinb0_1 i)).WholeWords (EltTy.packing .f32)

variable [Facts₀]

abbrev win0_0 : Pipeline.Window sig grid0 :=
  Pipeline.Window.ofSpec (Memref.whole main_v0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1048576 : Shape := ⟨1, ![1048576]⟩
abbrev S_ : Shape := ⟨0, ![]⟩
abbrev S1048576x1 : Shape := ⟨2, ![1048576, 1]⟩
abbrev S1x64 : Shape := ⟨2, ![1, 64]⟩
abbrev S1048576x64 : Shape := ⟨2, ![1048576, 64]⟩

abbrev nBuf : Space → Nat
  | .hbm => 51
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S_, .i1⟩
  | .hbm, ⟨17, _⟩ => ⟨S1048576, .i1⟩
  | .hbm, ⟨18, _⟩ => ⟨S1048576, .i1⟩
  | .hbm, ⟨19, _⟩ => ⟨S1048576, .i1⟩
  | .hbm, ⟨20, _⟩ => ⟨S1048576, .i32⟩
  | .hbm, ⟨21, _⟩ => ⟨S1048576, .i32⟩
  | .hbm, ⟨22, _⟩ => ⟨S1048576, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i1⟩
  | .hbm, ⟨37, _⟩ => ⟨S_, .i32⟩
  | .hbm, ⟨38, _⟩ => ⟨S_, .i1⟩
  | .hbm, ⟨39, _⟩ => ⟨S1048576, .i1⟩
  | .hbm, ⟨40, _⟩ => ⟨S1048576, .i1⟩
  | .hbm, ⟨41, _⟩ => ⟨S1048576, .i1⟩
  | .hbm, ⟨42, _⟩ => ⟨S1048576, .i32⟩
  | .hbm, ⟨43, _⟩ => ⟨S1048576, .i32⟩
  | .hbm, ⟨44, _⟩ => ⟨S1048576, .i32⟩
  | .hbm, ⟨45, _⟩ => ⟨S1048576x1, .i32⟩
  | .hbm, ⟨46, _⟩ => ⟨S1x64, .i32⟩
  | .hbm, ⟨47, _⟩ => ⟨S1048576x64, .i32⟩
  | .hbm, ⟨48, _⟩ => ⟨S1048576x64, .i32⟩
  | .hbm, ⟨49, _⟩ => ⟨S1048576x64, .i1⟩
  | .hbm, ⟨50, _⟩ => ⟨S1048576x64, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c_1 : Ref sig .tc := ⟨.hbm, 9, rfl⟩
abbrev main_call0_v5 : Ref sig .tc := ⟨.hbm, 10, rfl⟩
abbrev main_call0_v6 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_c_3 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S1x64_S1048576x64_0_1 : S1x64.BroadcastsInDim S1048576x64 (![0, 1] : Fin 2 → Fin S1048576x64.rank)

variable [Facts₀]

class Facts : Prop extends Facts₀ where

variable [Facts]
-- ==== Proof.Spec.lean ====
/-
  The specification: the one-hot rows of the low six bits.

  For a word x and a column l < 64 the entry is 1 when the low six bits of x (x AND 63) are the number l, and 0
  otherwise; the result array has, in row r, the entries of word r of the argument. Both programs end in a comparison
  of two words read as a float: the reference reads the one-bit answer as an unsigned integer, the kernel widens it to
  32 bits (zero-extended) and reads that as a signed integer; either way a true comparison is the real 1 and a false
  one the real 0, exactly, at the ideal instance.
-/
import Idealize.ShloMosaic.PureOps.Ideal
import Idealize.ShloMosaic.Lib.ValueIdx

noncomputable section

namespace Cert.OneHotSpec

open Idealize.ShloMosaic Idealize.ShloMosaic.ValueIdx

/-- The argument's shape, 1048576 words, and the result's, 1048576 rows of 64. -/
abbrev SIn : Shape := ⟨1, ![1048576]⟩
abbrev SOut : Shape := ⟨2, ![1048576, 64]⟩

/-- The entry at column `l` of the row of word `x`: 1 when the low six bits of `x` are `l`, else 0. -/
def hot (x : BitVec 32) (l : Nat) : EReal := if x &&& 63#32 = BitVec.ofNat 32 l then 1 else 0

/-- The result array as one function of the argument array, index by index. -/
def G (x : SIn.Idx → BitVec 32) : SOut.Idx → EReal :=
  fun i => hot (x (ix1 ⟨(i 0).val, idx2_lt0 i⟩)) (i 1).val

/-- A word comparison read as an unsigned one-bit integer is 1 or 0. -/
theorem uitofp_cmpi_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · subst h; simp
  · rw [if_neg h, beq_eq_false_iff_ne.mpr h]; simp

/-- A word comparison zero-extended to 32 bits and read as a signed integer is 1 or 0. -/
theorem sitofp_extui_cmpi_eq (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · subst h; simp
  · rw [if_neg h, beq_eq_false_iff_ne.mpr h]; simp

end Cert.OneHotSpec

end
-- ==== Proof.KernelValue.lean ====
/-
  The kernel's result array is the specification of the argument array.

  The grid has 128 points; point t reads rows 8192·t … 8192·t + 8191 of the argument viewed as a column (a host
  reshape before the call) and writes the same rows of the result. The body masks each word of its block with 63,
  repeats it along the row, compares it with the column number (the iota along the row), widens the one-bit answer to 32
  bits and reads it as a float: entry (p, q) of the block it writes is 1 when the low six bits of word p of its input
  block are q and 0 otherwise. The 128 blocks tile the result, so the result array is that function of the argument,
  row by row.
-/
import proofs.«406201_j25890062860681_3_alg».proof.Proof.Gen.KernelIdeal.Value
import proofs.«406201_j25890062860681_3_alg».proof.Proof.Spec
import Idealize.ShloMosaic.Lib.Pipeline.Value
import Idealize.ShloMosaic.Lib.ValueIdx
import Idealize.ShloMosaic.Lib.StableHlo.Run

noncomputable section

namespace Cert.KernelIdeal.OneHotValue

open Cert.KernelIdeal Cert.KernelIdeal.Gen Cert.KernelIdeal.Value Cert.OneHotSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The body's payload at an entry -/

/-- Entry `y` of what the body stores, from its input block `v0` (a column of 8192 words): the one-hot entry of the word in
    `y`'s row at `y`'s column. `z` is the index of that word in the column. -/
theorem pay_at (v0 : Vec Ideal S8192x1 .i32) (y : S8192x64.Idx) (z : S8192x1.Idx) (hz : (z 0).val = (y 0).val) :
    k0_pay1 (F := Ideal) v0 y = hot (v0 z) (y 1).val := by
  obtain ⟨p, q, rfl⟩ : ∃ (p : Fin 8192) (q : Fin 64), y = ix2 p q := ⟨y 0, y 1, eq_ix2 y⟩
  obtain ⟨p', o, rfl⟩ : ∃ (p' : Fin 8192) (o : Fin 1), z = ix2 p' o := ⟨z 0, z 1, eq_ix2 z⟩
  obtain rfl : p' = p := Fin.ext hz
  obtain rfl : o = 0 := Subsingleton.elim _ _
  unfold k0_pay1
  show FloatOps.sitofp (F := Ideal) .f32 ((IntOp.cmpi .eq
      (broadcastTo S8192x64 (andi (shapeCast S8192x1 v0 shapeCasts_S8192x1_S8192x1) (broadcast S8192x1 63#32))
        broadcasts_S8192x1_S8192x64 (ix2 p' q))
      (iota .tc S8192x64 32 [1] iota_S8192x64_d1_w32 (ix2 p' q))).setWidth 32) = _
  rw [broadcastTo_apply _ broadcasts_S8192x1_S8192x64 (ix2 p' q) (ix2 p' (0 : Fin 1))
        (fun a => by match a with | ⟨0, _⟩ => rfl | ⟨1, _⟩ => rfl),
      iota_single_apply, shapeCast_self, sitofp_extui_cmpi_eq]
  rfl

/-! ## From blocks to the array -/

/-- The result array as a function of window 0's array, the argument viewed as a column of 1048576 words. -/
def GCol (a : S1048576x1.Idx → BitVec 32) : S1048576x64.Idx → EReal :=
  fun i => hot (a (ix2 ⟨(i 0).val, idx2_lt0 i⟩ (0 : Fin 1))) (i 1).val

/-- The two index maps, decided over the 128 points: both windows are at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `GCol` of window 0's array: the input block's row p is the array's row
    8192·t + p, which is also the row of the output block's row p. -/
theorem flushed1_eq (c : Dev nD) (t : Fin cfg0.N) :
    (dats m 0 c).flushed 1 t = ((cfg0.win 1).blk t).view.read (Elt Ideal) (GCol (V m c main_v0)) := by
  rw [flushed1]
  unfold out0_1
  rw [View.canon_unit_zero origin]
  simp only [View.ld_unit_zero (S := S8192x1) origin]
  obtain ⟨e0, e1, e2, e3⟩ := idx_facts t
  funext j
  have hj0 : (j 0).val < 8192 := (j 0).isLt
  have hj1 : (j 1).val < 64 := (j 1).isLt
  show k0_pay1 (F := Ideal) (iblk m c 0 t) j = GCol (V m c main_v0) (((cfg0.win 1).blk t).view.emb j)
  refine (pay_at (iblk m c 0 t) j (ix2 (⟨(j 0).val, hj0⟩ : Fin 8192) (0 : Fin 1)) rfl).trans ?_
  show hot (V m c main_v0 (((cfg0.win 0).blk t).view.emb (ix2 (⟨(j 0).val, hj0⟩ : Fin 8192) (0 : Fin 1)))) (j 1).val
      = hot (V m c main_v0 (ix2 ⟨((((cfg0.win 1).blk t).view.emb j) 0).val, _⟩ (0 : Fin 1))) ((((cfg0.win 1).blk t).view.emb j) 1).val
  have h1 : ((((cfg0.win 1).blk t).view.emb j) 1).val = (j 1).val := by
    show win0_1.index t (1 : Fin 2) * 64 + 1 * (j 1).val = (j 1).val
    omega
  rw [h1]
  congr 2
  funext a
  apply Fin.ext
  match a with
  | ⟨0, _⟩ =>
    show win0_0.index t (0 : Fin 2) * 8192 + 1 * (j 0).val = win0_1.index t (0 : Fin 2) * 8192 + 1 * (j 0).val
    omega
  | ⟨1, _⟩ =>
    show win0_0.index t (1 : Fin 2) * 1 + 1 * 0 = 0
    omega

/-- An index of the result is in point `t`'s block iff each coordinate is in the block's range on its axis. -/
theorem mem_blk1 (t : Fin cfg0.N) (i : S1048576x64.Idx) :
    i ∈ ((cfg0.win 1).blk t).view.set ↔ ∀ a : Fin 2, win0_1.index t a * S8192x64.size a ≤ (i a).val
      ∧ (i a).val < win0_1.index t a * S8192x64.size a + S8192x64.size a := by
  show i ∈ ((View.whole main_v1).slice (win0_1.rect t)).set ↔ _
  rw [View.set_slice_whole, Rect.mem_set_unit]
  exact Iff.rfl

/-- The blocks cover the result: row r is in the block of point r / 8192. -/
theorem cover1 (i : S1048576x64.Idx) :
    ∃ t : Fin cfg0.N, (cfg0.win 1).flush t = true ∧ i ∈ ((cfg0.win 1).blk t).view.set := by
  have hi0 : (i 0).val < 1048576 := (i 0).isLt
  have hi1 : (i 1).val < 64 := (i 1).isLt
  have hN : cfg0.N = 128 := N_0
  obtain ⟨t, ht⟩ : ∃ t : Fin cfg0.N, t.val = (i 0).val / 8192 := ⟨⟨(i 0).val / 8192, by rw [hN]; omega⟩, rfl⟩
  obtain ⟨e0, e1, e2, e3⟩ := idx_facts t
  refine ⟨t, flush0_1 t, ?_⟩
  rw [mem_blk1]
  intro a
  match a with
  | ⟨0, _⟩ =>
    show win0_1.index t (0 : Fin 2) * 8192 ≤ (i 0).val ∧ (i 0).val < win0_1.index t (0 : Fin 2) * 8192 + 8192
    omega
  | ⟨1, _⟩ =>
    show win0_1.index t (1 : Fin 2) * 64 ≤ (i 1).val ∧ (i 1).val < win0_1.index t (1 : Fin 2) * 64 + 64
    omega

/-- So the result array after the run is `GCol` of window 0's array as the region finds it. -/
theorem final1 (c : Dev nD) : (dats m 0 c).arrAt 1 cfg0.N = GCol (V m c main_v0) :=
  (dats m 0 c).arrAt_eq_of_cover 1 (GCol (V m c main_v0)) (fun t _ => flushed1_eq m c t) cover1

/-! ## The host reshape before the call -/

/-- Window 0's array as the region finds it is the argument array viewed as a column (the one host operation). -/
theorem V_main_v0 (c : Dev nD) :
    (V m c main_v0 : S1048576x1.Idx → BitVec 32)
      = shapeCast S1048576x1 (m ((c : Thread nD τ).loc main_arg0) : S1048576.Idx → BitVec 32) shapeCasts_S1048576_S1048576x1 := by
  dsimp only [V, hostOps0]
  after_results
  rfl

/-- `GCol` of the column view is the specification of the array: row r of the column is word r. -/
theorem GCol_shapeCast (x : S1048576.Idx → BitVec 32) :
    GCol (shapeCast S1048576x1 x shapeCasts_S1048576_S1048576x1) = G x := by
  funext i
  unfold GCol G
  congr 1
  refine shapeCast_apply x _ _ _ ?_
  rw [Shape.rowMajor_val_one, Shape.rowMajor_val_two]
  show (i 0).val = (i 0).val * 1 + 0
  omega

/-! ## The run, read -/

/-- Every weakly fair execution of the kernel's program ends with the result array at the specification of the argument
    array, the argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans ((final1 m c).trans (by rw [V_main_v0, GCol_shapeCast])), (h c).2⟩)
    (run_blocks m ρ)

end Cert.KernelIdeal.OneHotValue

end
-- ==== Proof.RefRun.lean ====
/-
  The reference program's run, read back.

  The reference computes, for each of the 1048576 words x, the index (x mod 256) mod 64 — jnp's remainder: the
  truncated remainder r of x by the divisor d (by 1 where d = 0), moved by d when r is nonzero and its sign is not d's —
  and then the row of 64 extended reals that is 1 at that index and 0 elsewhere (the comparison of the index with the
  column number, read as an unsigned one-bit integer).

  Its @main is three calls of module-local functions (two remainders, each calling a select of its own, and the one-hot
  comparison) around two scalar constants. Listed here is that straight line of 50 host operations, each callee's
  operations written at its call site over that call's own buffers; @main is that list (the functions' bodies unfolded),
  and every weakly fair execution of it ends with the result buffer at the composed term of the argument array:
  `oneHot (floorMod (floorMod x 256) 64)`, the argument unchanged.
-/
import proofs.«406201_j25890062860681_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two functions of the argument array -/

/-- The divisor jnp divides by: the scalar `d` itself, or 1 where `d` is 0. -/
def safeDiv (d : IVec S_ 32) : IVec S_ 32 :=
  select (cmpi .eq (id d) (constantI S_ 32 0#32)) (constantI S_ 32 1#32) (id d)

/-- The truncated remainder of each word of `x` by the safe divisor. -/
def truncRem (x : IVec S1048576 32) (d : IVec S_ 32) : IVec S1048576 32 :=
  Host.remsi x (broadcastInDim S1048576 ![] bcast_S_S1048576 (safeDiv d))

/-- jnp's remainder of each word of `x` by the scalar `d`: the truncated remainder `r`, moved by the divisor where `r` is
    nonzero and negative when the divisor is not (or the other way round). -/
def floorMod (x : IVec S1048576 32) (d : IVec S_ 32) : IVec S1048576 32 :=
  select
    (andi
      (cmpi .ne
        (cmpi .slt (truncRem x d) (broadcastInDim S1048576 ![] bcast_S_S1048576 (constantI S_ 32 0#32)))
        (broadcastInDim S1048576 ![] bcast_S_S1048576 (cmpi .slt (safeDiv d) (constantI S_ 32 0#32))))
      (cmpi .ne (truncRem x d) (broadcastInDim S1048576 ![] bcast_S_S1048576 (constantI S_ 32 0#32))))
    (addi (truncRem x d) (broadcastInDim S1048576 ![] bcast_S_S1048576 (safeDiv d)))
    (truncRem x d)

/-- The one-hot rows: entry (r, l) is the comparison of word r of `y` with the column number l, read as an unsigned
    one-bit integer. -/
def oneHot (y : IVec S1048576 32) : FVec F S1048576x64 .f32 :=
  uitofp .f32
    (cmpi .eq
      (broadcastInDim S1048576x64 ![0, 1] bcast_S1048576x1_S1048576x64_0_1
        (broadcastInDim S1048576x1 ![0] bcast_S1048576_S1048576x1_0 y))
      (broadcastInDim S1048576x64 ![0, 1] bcast_S1x64_S1048576x64_0_1 (iotaInDim S1x64 32 1)))

/-! ## @main as a list of operations -/

/-- @main's 50 operations in order, the calls unfolded: the constant 256; the first remainder's 21 into `main_call0`'s
    buffers (its select into `main_call0.call0`'s); the constant 64; the second remainder's 21 into `main_call1`'s;
    the one-hot comparison's 6 into `main_call2`'s. -/
abbrev ops : List (HloOp τ sig (Elt F)) :=
  [ nullary main_c (constantI S_ 32 256#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1048576 ![] bcast_S_S1048576),
    TRef.binary (.of main_arg0 : TRef sig ⟨S1048576, .i32⟩) main_call0.v3 main_call0.v4 Host.remsi,
    TRef.nullary main_call0.c_1 (constantI S_ 32 0#32),
    TRef.unary main_call0.c_1 main_call0.v5 (broadcastInDim S1048576 ![] bcast_S_S1048576),
    TRef.binary main_call0.v4 main_call0.v5 main_call0.v6 (cmpi .ne),
    TRef.nullary main_call0.c_2 (constantI S_ 32 0#32),
    TRef.unary main_call0.c_2 main_call0.v7 (broadcastInDim S1048576 ![] bcast_S_S1048576),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1048576 ![] bcast_S_S1048576),
    TRef.binary main_call0.v8 main_call0.v10 main_call0.v11 (cmpi .ne),
    TRef.binary main_call0.v11 main_call0.v6 main_call0.v12 andi,
    TRef.unary main_call0.call0.v0 main_call0.v13 (broadcastInDim S1048576 ![] bcast_S_S1048576),
    TRef.binary main_call0.v4 main_call0.v13 main_call0.v14 addi,
    TRef.ternary main_call0.v12 main_call0.v14 main_call0.v4 main_call0.v15 select,
    nullary main_c_0 (constantI S_ 32 64#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1048576 ![] bcast_S_S1048576),
    TRef.binary (.of main_v0 : TRef sig ⟨S1048576, .i32⟩) main_call1.v3 main_call1.v4 Host.remsi,
    TRef.nullary main_call1.c_1 (constantI S_ 32 0#32),
    TRef.unary main_call1.c_1 main_call1.v5 (broadcastInDim S1048576 ![] bcast_S_S1048576),
    TRef.binary main_call1.v4 main_call1.v5 main_call1.v6 (cmpi .ne),
    TRef.nullary main_call1.c_2 (constantI S_ 32 0#32),
    TRef.unary main_call1.c_2 main_call1.v7 (broadcastInDim S1048576 ![] bcast_S_S1048576),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1048576 ![] bcast_S_S1048576),
    TRef.binary main_call1.v8 main_call1.v10 main_call1.v11 (cmpi .ne),
    TRef.binary main_call1.v11 main_call1.v6 main_call1.v12 andi,
    TRef.unary main_call1.call0.v0 main_call1.v13 (broadcastInDim S1048576 ![] bcast_S_S1048576),
    TRef.binary main_call1.v4 main_call1.v13 main_call1.v14 addi,
    TRef.ternary main_call1.v12 main_call1.v14 main_call1.v4 main_call1.v15 select,
    TRef.unary (.of main_v1 : TRef sig ⟨S1048576, .i32⟩) main_call2.v0 (broadcastInDim S1048576x1 ![0] bcast_S1048576_S1048576x1_0),
    TRef.nullary main_call2.v1 (iotaInDim S1x64 32 1),
    TRef.unary main_call2.v0 main_call2.v2 (broadcastInDim S1048576x64 ![0, 1] bcast_S1048576x1_S1048576x64_0_1),
    TRef.unary main_call2.v1 main_call2.v3 (broadcastInDim S1048576x64 ![0, 1] bcast_S1x64_S1048576x64_0_1),
    TRef.binary main_call2.v2 main_call2.v3 main_call2.v4 (cmpi .eq),
    TRef.unary main_call2.v4 main_call2.v5 (uitofp .f32) ]

-- fifty binds re-associated: the rewrite under the chain recurses once per statement
set_option maxRecDepth 2048 in
/-- @main is that straight line: the functions' definitions unfolded at their calls and the records at their fields,
    both sides are one chain of operation steps once sequencing is reassociated. -/
theorem main_eq (c : Dev nD) : main (F := F) c = seq ops := by
  simp only [main, fn_remainder.body, fn_remainder_0.body, fn_where.body, fn_one_hot.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    unary_bufs_sub .., nullary_bufs_sub .., unary_bufs_sub .., unary_bufs_sub .., binary_bufs_sub .., unary_bufs_sub ..⟩

/-! ## The run -/

/-- The result buffer after the 50 operations is the composed term of the argument buffer's contents. -/
theorem out_eq (V : Valuation τ sig (Elt F)) :
    after ops V (main_v2 : DevRef τ sig)
      = oneHot (F := F) (floorMod (floorMod (V (main_arg0 : DevRef τ sig)) (constantI S_ 32 256#32)) (constantI S_ 32 64#32)) := by
  after_results_simp
  -- a typed reference moves a value to its buffer's type and back along an equation of types: the two moves cancel
  simp only [cast_cast, cast_eq]
  unfold oneHot floorMod truncRem safeDiv
  rfl

/-- No operation writes the argument buffer. -/
theorem arg0_eq (V : Valuation τ sig (Elt F)) :
    after ops V (main_arg0 : DevRef τ sig) = V (main_arg0 : DevRef τ sig) := by
  after_results_simp

/-- On every device, for any float values, from any memory with zero counters: every weakly fair execution of @main
    terminates with the result at `oneHot (floorMod (floorMod x 256) 64)` of the argument array `x`, and `x` unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = oneHot (F := F) (floorMod (floorMod (m ((c.tc : Thread nD τ).loc main_arg0)) (constantI S_ 32 256#32)) (constantI S_ 32 64#32))
      ∧ r.2.mem ((c.tc : Thread nD τ).loc main_arg0) = m ((c.tc : Thread nD τ).loc main_arg0) :=
  (θ_run defs _ _).mono (fun _ h c => ⟨(h c main_v2).trans (out_eq _), (h c main_arg0).trans (arg0_eq _)⟩)
    (run_seq scopedRefs_eq scopedSems_eq defs main (fun _ => ops) main_eq (fun _ => ops_sub) m ρ)

end Cert.ReferenceIdeal.RefRun

end
-- ==== Proof.LibFloorModWord.lean ====
/-
  jnp's remainder by a positive power of two is the bit mask.

  At one 32-bit word x and a divisor d, jnp's remainder is: r = the truncated remainder of x by d (d ≠ 0), and then
  r + d when r ≠ 0 and the signs of r and d differ, else r. For d = 2^k (here 256 and 64) that is x mod 2^k in
  [0, 2^k), which on two's-complement words is x AND (2^k − 1), for every x, negative ones and the least word
  included: for x ≥ 0 the truncated remainder is already x mod 2^k; for x < 0 it is −((−x) mod 2^k), which is 0 or
  negative, and adding 2^k to a negative one gives 2^k − ((−x) mod 2^k) = x mod 2^k since 2^k divides 2^32.
  Two such remainders in a row, by 256 and then by 64, are the one mask 63 (64 divides 256).
-/
import Idealize.ShloMosaic.PureOps

namespace Cert.OneHotWord

open Idealize.ShloMosaic

/-- jnp's remainder at one word, operation by operation as the reference program computes it. -/
def floorModWord (x d : BitVec 32) : BitVec 32 :=
  Scalar.select
    (IntOp.andi
      (IntOp.cmpi .ne
        (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d)) (Scalar.select (IntOp.cmpi .eq d 0#32) 1#32 d))
    (IntOp.remsi .host x (Scalar.select (IntOp.cmpi .eq d 0#32) 1#32 d))

/-- With a positive divisor (so no division corner), jnp's remainder is: the signed remainder r, plus the divisor when
    r is negative. -/
theorem floorModWord_pos (x d : BitVec 32) (hd0 : d ≠ 0#32) (hd1 : d ≠ -1#32) (hdm : d.msb = false) :
    floorModWord x d = if (x.srem d).msb = true then x.srem d + d else x.srem d := by
  have hsel : Scalar.select (IntOp.cmpi .eq d 0#32) 1#32 d = d := by
    have hb : (d == 0#32) = false := beq_eq_false_iff_ne.mpr hd0
    show (if BitVec.ofBool (d == 0#32) = 1#1 then 1#32 else d) = d
    rw [hb]
    exact if_neg (by decide)
  have hrem : IntOp.remsi .host x d = x.srem d := by
    unfold IntOp.remsi
    refine if_neg ?_
    rintro (h | ⟨_, h⟩)
    · exact hd0 h
    · exact hd1 h
  have hs0 : IntOp.cmpi .slt d 0#32 = 0#1 := by
    unfold IntOp.cmpi
    simp only [BitVec.slt_zero_eq_msb, hdm]
    rfl
  have hsr : IntOp.cmpi .slt (x.srem d) 0#32 = BitVec.ofBool (x.srem d).msb := by
    unfold IntOp.cmpi
    simp only [BitVec.slt_zero_eq_msb]
  unfold floorModWord
  rw [hsel, hrem, hs0, hsr]
  cases hr : (x.srem d).msb
  · have hc : IntOp.andi (IntOp.cmpi .ne (BitVec.ofBool false) 0#1) (IntOp.cmpi .ne (x.srem d) 0#32) = 0#1 := by
      unfold IntOp.andi IntOp.cmpi
      simp
    rw [hc]
    unfold Scalar.select
    simp
  · have hne : x.srem d ≠ 0#32 := by
      intro h0; rw [h0] at hr; simp at hr
    have hc : IntOp.andi (IntOp.cmpi .ne (BitVec.ofBool true) 0#1) (IntOp.cmpi .ne (x.srem d) 0#32) = 1#1 := by
      have hb : (x.srem d != 0#32) = true := bne_iff_ne.mpr hne
      show BitVec.ofBool (BitVec.ofBool true != 0#1) &&& BitVec.ofBool (x.srem d != 0#32) = 1#1
      rw [hb]
      decide
    rw [hc]
    unfold Scalar.select IntOp.addi
    simp

/-- The signed remainder by 256, made nonnegative, is the mask 255. -/
theorem floorMod256 (x : BitVec 32) : floorModWord x 256#32 = x &&& 255#32 := by
  rw [floorModWord_pos x 256#32 (by decide) (by decide) (by decide)]
  apply BitVec.eq_of_toNat_eq
  rw [BitVec.toNat_and, show (255#32 : BitVec 32).toNat = 2 ^ 8 - 1 from rfl, Nat.and_two_pow_sub_one_eq_mod]
  have hx : x.toNat < 2 ^ 32 := x.isLt
  rw [BitVec.srem_eq, show (256#32 : BitVec 32).msb = false from by decide]
  cases hxm : x.msb
  · dsimp only
    have hlt : x.toNat < 2 ^ 31 := by
      rw [BitVec.msb_eq_decide] at hxm; simpa using hxm
    have h1 : (x % 256#32).toNat = x.toNat % 256 := by rw [BitVec.toNat_umod]; rfl
    have hm : (x % 256#32).msb = false := by
      rw [BitVec.msb_eq_decide, h1]; simp; omega
    simp only [hm, Bool.false_eq_true, if_false, h1]
  · dsimp only
    have hge : 2 ^ 31 ≤ x.toNat := by
      rw [BitVec.msb_eq_decide] at hxm; simpa using hxm
    have hnx : (-x).toNat = 2 ^ 32 - x.toNat := by rw [BitVec.toNat_neg]; omega
    have hu : ((-x) % 256#32).toNat = (2 ^ 32 - x.toNat) % 256 := by rw [BitVec.toNat_umod, hnx]; rfl
    have hr : (-((-x) % 256#32)).toNat = (2 ^ 32 - ((-x) % 256#32).toNat) % 2 ^ 32 := BitVec.toNat_neg _
    by_cases hu0 : ((-x) % 256#32).toNat = 0
    · have hm : (-((-x) % 256#32)).msb = false := by
        rw [BitVec.msb_eq_decide, hr, hu0]; simp
      simp only [hm, Bool.false_eq_true, if_false, hr, hu0]
      rw [hu] at hu0
      omega
    · have hm : (-((-x) % 256#32)).msb = true := by
        rw [BitVec.msb_eq_decide, hr]; simp; omega
      simp only [hm, if_true, BitVec.toNat_add, hr]
      rw [hu] at hu0 ⊢
      rw [show (256#32 : BitVec 32).toNat = 256 from rfl]
      omega

/-- The signed remainder by 64, made nonnegative, is the mask 63: the same argument at the other divisor. -/
theorem floorMod64 (x : BitVec 32) : floorModWord x 64#32 = x &&& 63#32 := by
  rw [floorModWord_pos x 64#32 (by decide) (by decide) (by decide)]
  apply BitVec.eq_of_toNat_eq
  rw [BitVec.toNat_and, show (63#32 : BitVec 32).toNat = 2 ^ 6 - 1 from rfl, Nat.and_two_pow_sub_one_eq_mod]
  have hx : x.toNat < 2 ^ 32 := x.isLt
  rw [BitVec.srem_eq, show (64#32 : BitVec 32).msb = false from by decide]
  cases hxm : x.msb
  · dsimp only
    have hlt : x.toNat < 2 ^ 31 := by
      rw [BitVec.msb_eq_decide] at hxm; simpa using hxm
    have h1 : (x % 64#32).toNat = x.toNat % 64 := by rw [BitVec.toNat_umod]; rfl
    have hm : (x % 64#32).msb = false := by
      rw [BitVec.msb_eq_decide, h1]; simp; omega
    simp only [hm, Bool.false_eq_true, if_false, h1]
  · dsimp only
    have hge : 2 ^ 31 ≤ x.toNat := by
      rw [BitVec.msb_eq_decide] at hxm; simpa using hxm
    have hnx : (-x).toNat = 2 ^ 32 - x.toNat := by rw [BitVec.toNat_neg]; omega
    have hu : ((-x) % 64#32).toNat = (2 ^ 32 - x.toNat) % 64 := by rw [BitVec.toNat_umod, hnx]; rfl
    have hr : (-((-x) % 64#32)).toNat = (2 ^ 32 - ((-x) % 64#32).toNat) % 2 ^ 32 := BitVec.toNat_neg _
    by_cases hu0 : ((-x) % 64#32).toNat = 0
    · have hm : (-((-x) % 64#32)).msb = false := by
        rw [BitVec.msb_eq_decide, hr, hu0]; simp
      simp only [hm, Bool.false_eq_true, if_false, hr, hu0]
      rw [hu] at hu0
      omega
    · have hm : (-((-x) % 64#32)).msb = true := by
        rw [BitVec.msb_eq_decide, hr]; simp; omega
      simp only [hm, if_true, BitVec.toNat_add, hr]
      rw [hu] at hu0 ⊢
      rw [show (64#32 : BitVec 32).toNat = 64 from rfl]
      omega

/-- The two remainders of the reference in a row, by 256 and then by 64, are the one mask 63 (64 divides 256: the low six
    bits of the low eight bits are the low six bits). -/
theorem floorMod_floorMod (x : BitVec 32) : floorModWord (floorModWord x 256#32) 64#32 = x &&& 63#32 := by
  rw [floorMod256, floorMod64, BitVec.and_assoc]
  rfl

end Cert.OneHotWord
-- ==== Proof.RefValue.lean ====
/-
  The reference's result, index by index, is the specification.

  Entry (r, l) of the reference's result is the comparison, read as an unsigned one-bit integer, of the column number l
  with word r of the argument after jnp's remainder by 256 and then by 64; the two remainders are the mask 63
  (the word lemma), so the entry is 1 when the low six bits of the word are l and 0 otherwise.
-/
import proofs.«406201_j25890062860681_3_alg».proof.Proof.RefRun
import proofs.«406201_j25890062860681_3_alg».proof.Proof.LibFloorModWord
import proofs.«406201_j25890062860681_3_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Cert.OneHotWord Cert.OneHotSpec
open Idealize.ShloMosaic Idealize.ShloMosaic.ValueIdx

/-- jnp's remainder of the array by a scalar constant, read at a word: the one-word remainder of that word (every
    operation of it is elementwise, the scalar broadcast to every word). -/
theorem floorMod_apply (x : IVec S1048576 32) (b : BitVec 32) (i : S1048576.Idx) :
    floorMod x (constantI S_ 32 b) i = floorModWord (x i) b := rfl

/-- The one-hot rows at entry (r, l): word r compared with the column number l. The first broadcast makes the words a
    column, the second repeats the column along the row; the column numbers are one row repeated down the column. -/
theorem oneHot_apply (y : IVec S1048576 32) (r : Fin 1048576) (l : Fin 64) :
    oneHot (F := Ideal) y (ix2 r l)
      = FloatOps.uitofp (F := Ideal) .f32 (IntOp.cmpi .eq (y (ix1 r)) (BitVec.ofNat 32 l.val)) := by
  unfold oneHot
  show FloatOps.uitofp (F := Ideal) .f32 (IntOp.cmpi .eq
      (broadcastInDim S1048576x64 ![0, 1] bcast_S1048576x1_S1048576x64_0_1
        (broadcastInDim S1048576x1 ![0] bcast_S1048576_S1048576x1_0 y) (ix2 r l))
      (broadcastInDim S1048576x64 ![0, 1] bcast_S1x64_S1048576x64_0_1 (iotaInDim S1x64 32 1) (ix2 r l))) = _
  rw [broadcastInDim_apply ![0, 1] bcast_S1048576x1_S1048576x64_0_1 _ (ix2 r l) (ix2 r (0 : Fin 1))
        (fun a => by match a with | ⟨0, _⟩ => rfl | ⟨1, _⟩ => rfl),
      broadcastInDim_apply ![0] bcast_S1048576_S1048576x1_0 y (ix2 r (0 : Fin 1)) (ix1 r)
        (fun a => by match a with | ⟨0, _⟩ => rfl),
      broadcastInDim_apply ![0, 1] bcast_S1x64_S1048576x64_0_1 _ (ix2 r l) (ix2 (0 : Fin 1) l)
        (fun a => by match a with | ⟨0, _⟩ => rfl | ⟨1, _⟩ => rfl)]
  rfl

/-- The reference's composed term of the argument array is the specification's function of it. -/
theorem ref_eq (x : IVec S1048576 32) :
    oneHot (F := Ideal) (floorMod (floorMod x (constantI S_ 32 256#32)) (constantI S_ 32 64#32)) = G x := by
  funext i
  obtain ⟨r, l, rfl⟩ : ∃ (r : Fin 1048576) (l : Fin 64), i = ix2 r l := ⟨i 0, i 1, eq_ix2 i⟩
  rw [oneHot_apply, floorMod_apply, floorMod_apply, floorMod_floorMod, uitofp_cmpi_eq]
  rfl

end Cert.ReferenceIdeal.RefValue

end
-- ==== Proof.lean ====
/-
  A one-hot encoder of the low six bits: the kernel against its jnp reference, over the extended reals.

  The argument is an array of 1048576 32-bit words; the result has one row of 64 extended reals per word, 1 in the
  column whose number is the word's low six bits and 0 in the others.
  * The kernel views the argument as a column (a host reshape) and runs 128 grid points, each on 8192 rows: it masks
    each word with 63, compares it with the column number and reads the one-bit answer, zero-extended, as a float.
  * The reference takes jnp's remainder of each word by 256 and then by 64 — a truncated remainder corrected by the
    divisor when its sign is not the divisor's — and compares it with the column number, reading the answer as an
    unsigned one-bit integer.
  The two agree for EVERY word, negative ones included: jnp's remainder by a positive power of two is the bit mask
  (Proof/LibFloorModWord.lean), and 64 divides 256. Nothing is asked of the input, and no float arithmetic happens: both
  sides produce exactly the reals 0 and 1.

  The claims: each program runs and leaves its argument unchanged (the kernel's frames are the generated ones; the
  reference's is its run with the result forgotten); the idealized kernel is the kernel's own text (no rewrite: nothing
  to preserve); and the idealized kernel and the idealized reference, run on the same argument, both end with the
  result array at the specification's function `G` of it (Proof/KernelValue.lean over the generated blockwise value leg;
  Proof/RefRun.lean and Proof/RefValue.lean for the reference).
-/
import proofs.«406201_j25890062860681_3_alg».proof.Defs
import proofs.«406201_j25890062860681_3_alg».proof.Proof.Gen.Kernel
import proofs.«406201_j25890062860681_3_alg».proof.Proof.Gen.Kernel.Frame
import proofs.«406201_j25890062860681_3_alg».proof.Proof.Gen.KernelIdeal
import proofs.«406201_j25890062860681_3_alg».proof.Proof.Gen.KernelIdeal.Frame
import proofs.«406201_j25890062860681_3_alg».proof.Proof.Gen.KernelIdeal.Value
import proofs.«406201_j25890062860681_3_alg».proof.Proof.Gen.ReferenceIdeal
import proofs.«406201_j25890062860681_3_alg».proof.Proof.Gen.Pre_any_inputs
import proofs.«406201_j25890062860681_3_alg».proof.Proof.KernelValue
import proofs.«406201_j25890062860681_3_alg».proof.Proof.RefValue
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument unchanged: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing in this kernel: there is nothing to preserve. -/
theorem preserves : Cert.preserves_Kernel_KernelIdeal := trivial

/-- From memories agreeing on the argument array `x`, the idealized kernel ends with its result at `G x` (the blocks
    its 128 points write tile the array) and the idealized reference with its result at the one-hot rows of the two
    remainders of `x`, which is `G x` too. -/
theorem algebraic : Cert.algebraic_KernelIdeal_ReferenceIdeal := by
  intro m ρ m' ρ' _ hagree
  refine ⟨fun c => Cert.OneHotSpec.G (m ((c.tc : Thread Cert.KernelIdeal.nD Cert.KernelIdeal.τ).loc Cert.KernelIdeal.main_arg0)),
    Cert.KernelIdeal.OneHotValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_eq, hagree c]

theorem claim : Cert.Claim :=
  ⟨Cert.Kernel.Gen.facts, Cert.KernelIdeal.Gen.facts, Cert.ReferenceIdeal.Gen.facts, Cert.Pre_any_inputs.Gen.facts,
    frame_kernel, frame_kernelIdeal, frame_referenceIdeal, preserves, algebraic⟩

end Cert.Proof

end
